-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x224x224 : Shape := ⟨4, ![64, 3, 224, 224]⟩
abbrev S768x768 : Shape := ⟨2, ![768, 768]⟩
abbrev S768 : Shape := ⟨1, ![768]⟩
abbrev S1x768 : Shape := ⟨2, ![1, 768]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_

variable [Facts]

def fn_part1 {F : FTy → Type} [FloatOps F] (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  main_v18

def fn {F : FTy → Type} [FloatOps F] (main_arg0 : FVec F S64x3x224x224 .f32) (main_arg1 : FVec F S768x768 .f32) (main_arg2 : FVec F S768 .f32) (main_arg3 : FVec F S1x768 .f32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_v13 main_v16
-- ==== Kernel.lean ====
abbrev S64x3x224x224 : Shape := ⟨4, ![64, 3, 224, 224]⟩
abbrev S768x768 : Shape := ⟨2, ![768, 768]⟩
abbrev S768 : Shape := ⟨1, ![768]⟩
abbrev S1x768 : Shape := ⟨2, ![1, 768]⟩
abbrev S64x3x14x16x14x16 : Shape := ⟨6, ![64, 3, 14, 16, 14, 16]⟩
abbrev S64x14x14x3x16x16 : Shape := ⟨6, ![64, 14, 14, 3, 16, 16]⟩
abbrev S64x196x768 : Shape := ⟨3, ![64, 196, 768]⟩
abbrev S12544x768 : Shape := ⟨2, ![12544, 768]⟩
abbrev S1792x768 : Shape := ⟨2, ![1792, 768]⟩
abbrev S1x1x768 : Shape := ⟨3, ![1, 1, 768]⟩
abbrev S64x1x768 : Shape := ⟨3, ![64, 1, 768]⟩
abbrev S64x197x768 : Shape := ⟨3, ![64, 197, 768]⟩

abbrev nBuf : Space → Nat
  | .hbm => 15
  | .vmem => 6
  | .smem => 0
  | _ => 0

abbrev bufTy : (tb : Table) → Fin (tcTables nBuf tb) → BufTy
  | .hbm, ⟨0, _⟩ => ⟨S64x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S64x3x14x16x14x16, .f32⟩
  | .hbm, ⟨5, _⟩ => ⟨S64x14x14x3x16x16, .f32⟩
  | .hbm, ⟨6, _⟩ => ⟨S64x196x768, .f32⟩
  | .hbm, ⟨7, _⟩ => ⟨S12544x768, .f32⟩
  | .hbm, ⟨8, _⟩ => ⟨S768x768, .f32⟩
  | .hbm, ⟨9, _⟩ => ⟨S1x768, .f32⟩
  | .hbm, ⟨10, _⟩ => ⟨S12544x768, .f32⟩
  | .hbm, ⟨11, _⟩ => ⟨S64x196x768, .f32⟩
  | .hbm, ⟨12, _⟩ => ⟨S1x1x768, .f32⟩
  | .hbm, ⟨13, _⟩ => ⟨S64x1x768, .f32⟩
  | .hbm, ⟨14, _⟩ => ⟨S64x197x768, .f32⟩
  | .local _ .vmem, ⟨0, _⟩ => ⟨S1792x768, .f32⟩
  | .local _ .vmem, ⟨1, _⟩ => ⟨S1792x768, .f32⟩
  | .local _ .vmem, ⟨2, _⟩ => ⟨S768x768, .f32⟩
  | .local _ .vmem, ⟨3, _⟩ => ⟨S1x768, .f32⟩
  | .local _ .vmem, ⟨4, _⟩ => ⟨S1792x768, .f32⟩
  | .local _ .vmem, ⟨5, _⟩ => ⟨S1792x768, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1792x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x3x224x224_S64x3x14x16x14x16 : S64x3x224x224.ShapeCasts S64x3x14x16x14x16
  transposes_S64x3x14x16x14x16_S64x14x14x3x16x16_0_2_4_1_3_5 : S64x3x14x16x14x16.Transposes [0, 2, 4, 1, 3, 5] S64x14x14x3x16x16
  shapeCasts_S64x14x14x3x16x16_S64x196x768 : S64x14x14x3x16x16.ShapeCasts S64x196x768
  shapeCasts_S64x196x768_S12544x768 : S64x196x768.ShapeCasts S12544x768
  transposes_S768x768_S768x768_1_0 : S768x768.Transposes [1, 0] S768x768
  shapeCasts_S768_S1x768 : S768.ShapeCasts S1x768
  inb_S1792x768_S1792x768_0_0 : ∀ a, (![0, 0] : Fin 2 → Nat) a + S1792x768.size a ≤ S1792x768.size a
  h_S1792x768 : 0 < S1792x768.numel
  shapeCasts_S1792x768_S1792x768 : S1792x768.ShapeCasts S1792x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1792x768 : S1x768.Broadcasts S1792x768
  shapeCasts_S12544x768_S64x196x768 : S12544x768.ShapeCasts S64x196x768
  bcast_S1x768_S1x1x768_1_2 : S1x768.BroadcastsInDim S1x1x768 (![1, 2] : Fin 2 → Fin S1x1x768.rank)
  bcast_S1x1x768_S64x1x768_0_1_2 : S1x1x768.BroadcastsInDim S64x1x768 (![0, 1, 2] : Fin 3 → Fin S64x1x768.rank)
  concatenates_S64x1x768_S64x196x768_S64x197x768_d1 : Shape.Concatenates [S64x1x768, S64x196x768] S64x197x768 1
  dot_S1792x768_S768x768_S1792x768_1_0_0_1_n_n_wf : DotDims.WF S1792x768 S768x768 S1792x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x768.size a ≤ S12544x768.size a
  hwx0_0 : ∀ i : grid0.Coords, EltTy.bits .f32 = 32 ∨ (Rect.block (s := S12544x768) S1792x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1792x768.size a ≤ S12544x768.size a
  hwx0_3 : ∀ i : grid0.Coords, EltTy.bits .f32 = 32 ∨ (Rect.block (s := S12544x768) S1792x768.size (cc0_transform_3 i) (hinb0_3 i)).WholeWords (EltTy.packing .f32)

variable [Facts₀]

def dot_S1792x768_S768x768_S1792x768_1_0_0_1_n_n : DotDims S1792x768 S768x768 S1792x768 where
  lhsContracting := [1]
  rhsContracting := [0]
  lhsNonContracting := [0]
  rhsNonContracting := [1]
  lhsBatch := []
  rhsBatch := []
  wf := dot_S1792x768_S768x768_S1792x768_1_0_0_1_n_n_wf

abbrev win0_0 : Pipeline.Window sig grid0 :=
  Pipeline.Window.ofSpec (Memref.whole main_v3) S1792x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1792x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x224x224 : Shape := ⟨4, ![64, 3, 224, 224]⟩
abbrev S768x768 : Shape := ⟨2, ![768, 768]⟩
abbrev S768 : Shape := ⟨1, ![768]⟩
abbrev S1x768 : Shape := ⟨2, ![1, 768]⟩
abbrev S64x3x14x16x14x16 : Shape := ⟨6, ![64, 3, 14, 16, 14, 16]⟩
abbrev S64x14x14x3x16x16 : Shape := ⟨6, ![64, 14, 14, 3, 16, 16]⟩
abbrev S64x196x768 : Shape := ⟨3, ![64, 196, 768]⟩
abbrev S1x1x768 : Shape := ⟨3, ![1, 1, 768]⟩
abbrev S64x1x768 : Shape := ⟨3, ![64, 1, 768]⟩
abbrev S64x197x768 : Shape := ⟨3, ![64, 197, 768]⟩

abbrev nBuf : Space → Nat
  | .hbm => 14
  | .vmem => 0
  | .smem => 0
  | _ => 0

abbrev bufTy : (tb : Table) → Fin (tcTables nBuf tb) → BufTy
  | .hbm, ⟨0, _⟩ => ⟨S64x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S64x3x14x16x14x16, .f32⟩
  | .hbm, ⟨5, _⟩ => ⟨S64x14x14x3x16x16, .f32⟩
  | .hbm, ⟨6, _⟩ => ⟨S64x196x768, .f32⟩
  | .hbm, ⟨7, _⟩ => ⟨S64x196x768, .f32⟩
  | .hbm, ⟨8, _⟩ => ⟨S1x1x768, .f32⟩
  | .hbm, ⟨9, _⟩ => ⟨S64x196x768, .f32⟩
  | .hbm, ⟨10, _⟩ => ⟨S64x196x768, .f32⟩
  | .hbm, ⟨11, _⟩ => ⟨S1x1x768, .f32⟩
  | .hbm, ⟨12, _⟩ => ⟨S64x1x768, .f32⟩
  | .hbm, ⟨13, _⟩ => ⟨S64x197x768, .f32⟩
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S64x3x224x224_S64x3x14x16x14x16 : S64x3x224x224.ShapeCasts S64x3x14x16x14x16
  transposes_S64x3x14x16x14x16_S64x14x14x3x16x16_0_2_4_1_3_5 : S64x3x14x16x14x16.Transposes [0, 2, 4, 1, 3, 5] S64x14x14x3x16x16
  shapeCasts_S64x14x14x3x16x16_S64x196x768 : S64x14x14x3x16x16.ShapeCasts S64x196x768
  bcast_S768_S1x1x768_2 : S768.BroadcastsInDim S1x1x768 (![2] : Fin 1 → Fin S1x1x768.rank)
  bcast_S1x1x768_S64x196x768_0_1_2 : S1x1x768.BroadcastsInDim S64x196x768 (![0, 1, 2] : Fin 3 → Fin S64x196x768.rank)
  bcast_S1x768_S1x1x768_1_2 : S1x768.BroadcastsInDim S1x1x768 (![1, 2] : Fin 2 → Fin S1x1x768.rank)
  bcast_S1x1x768_S64x1x768_0_1_2 : S1x1x768.BroadcastsInDim S64x1x768 (![0, 1, 2] : Fin 3 → Fin S64x1x768.rank)
  concatenates_S64x1x768_S64x196x768_S64x197x768_d1 : Shape.Concatenates [S64x1x768, S64x196x768] S64x197x768 1
  dot_S64x196x768_S768x768_S64x196x768_2_1_01_0_n_n_wf : DotDims.WF S64x196x768 S768x768 S64x196x768 [2] [1] [0, 1] [0] [] []

variable [Facts₀]

def dot_S64x196x768_S768x768_S64x196x768_2_1_01_0_n_n : DotDims S64x196x768 S768x768 S64x196x768 where
  lhsContracting := [2]
  rhsContracting := [1]
  lhsNonContracting := [0, 1]
  rhsNonContracting := [0]
  lhsBatch := []
  rhsBatch := []
  wf := dot_S64x196x768_S768x768_S64x196x768_2_1_01_0_n_n_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Dense.lean ====
/-
  The dense layer of a patch embedding as ONE function of its three arrays, at the ideal values (every float an extended real,
  every operation exact).

  For a matrix `a` of R rows and 768 columns, a 768 x 768 matrix `wt` and a one-row matrix `bias`,
      dense a wt bias (r, h) = (sum over k of a (r, k) * wt (k, h)) + bias (0, h).
  The kernel's body computes exactly this tree on the rows of one block: the two operands rounded to bf16 (the identity on
  extended reals), their product accumulated into the zero matrix, the bias row spread down the rows and added. Each entry
  depends on ONE row of `a`, so the function commutes with cutting `a` into blocks of rows: this is what lets the blocks of the
  result be read as blocks of one whole-array function.
-/
import Idealize.ShloMosaic.PureOps.Ideal.Laws
import Idealize.ShloMosaic.Lib.ValueIdx
import Idealize.ShloMosaic.Lib.Pipeline.Value
import proofs.«166419_j16037407883837_1_alg».proof.Proof.LibPlainMatmul

noncomputable section

open scoped BigOperators
open Idealize.ShloMosaic Idealize.ShloMosaic.ValueIdx

namespace Cert.PatchEmbed

/-- Rows of `a` against columns of `wt`, plus the bias row: entry (r, h) is the sum over k of a (r, k) * wt (k, h), plus bias (0, h). -/
def dense {R : Nat} (a : (⟨2, ![R, 768]⟩ : Shape).Idx → EReal) (wt : (⟨2, ![768, 768]⟩ : Shape).Idx → EReal)
    (bias : (⟨2, ![1, 768]⟩ : Shape).Idx → EReal) : (⟨2, ![R, 768]⟩ : Shape).Idx → EReal :=
  fun j => (∑ k : Fin 768, a (ix2 (n0 := R) (n1 := 768) (j 0) k) * wt (ix2 (n0 := 768) (n1 := 768) k (j 1)))
    + bias (ix2 (n0 := 1) (n1 := 768) (0 : Fin 1) (j 1))

theorem dense_apply {R : Nat} (a : (⟨2, ![R, 768]⟩ : Shape).Idx → EReal) (wt : (⟨2, ![768, 768]⟩ : Shape).Idx → EReal)
    (bias : (⟨2, ![1, 768]⟩ : Shape).Idx → EReal) (p : Fin R) (q : Fin 768) :
    dense a wt bias (ix2 p q) = (∑ k : Fin 768, a (ix2 p k) * wt (ix2 k q)) + bias (ix2 (0 : Fin 1) q) := rfl

/-- The body's operation tree IS `dense`: same-shape casts are the identity, rounding to bf16 is the identity on extended reals,
    the product into the zero matrix is the plain sum of products, and the spread bias row is read at its column. -/
theorem ops_eq_dense {R : Nat} (d : DotDims (⟨2, ![R, 768]⟩ : Shape) ⟨2, ![768, 768]⟩ ⟨2, ![R, 768]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x0 : FVec Ideal ⟨2, ![R, 768]⟩ .f32) (x1 : FVec Ideal ⟨2, ![768, 768]⟩ .f32) (x2 : FVec Ideal ⟨2, ![1, 768]⟩ .f32)
    (h0 : (⟨2, ![R, 768]⟩ : Shape).ShapeCasts ⟨2, ![R, 768]⟩) (h1 : (⟨2, ![768, 768]⟩ : Shape).ShapeCasts ⟨2, ![768, 768]⟩)
    (h2 : (⟨2, ![1, 768]⟩ : Shape).ShapeCasts ⟨2, ![1, 768]⟩) (hb : (⟨2, ![1, 768]⟩ : Shape).Broadcasts ⟨2, ![R, 768]⟩)
    (ht : FTy.bf16.bits < FTy.f32.bits) :
    addf (FloatOps.matmul d prec (truncf .bf16 (shapeCast ⟨2, ![R, 768]⟩ x0 h0) ht) (truncf .bf16 (shapeCast ⟨2, ![768, 768]⟩ x1 h1) ht)
        (constant (F := Ideal) ⟨2, ![R, 768]⟩ .f32 0x00000000#32))
      (broadcastTo ⟨2, ![R, 768]⟩ (shapeCast ⟨2, ![1, 768]⟩ x2 h2) hb)
      = dense x0 x1 x2 := by
  funext j
  obtain ⟨p, q, rfl⟩ : ∃ (p : Fin R) (q : Fin 768), j = ix2 p q := ⟨j 0, j 1, eq_ix2 j⟩
  rw [addf_apply, Cert.Lib.PlainMatmul.apply d hlc hrc hln hrn hlb hrb, Cert.Lib.PlainMatmul.rowSpread_apply, dense_apply,
    shapeCast_self, shapeCast_self, shapeCast_self]
  rfl

end Cert.PatchEmbed

end
-- ==== Proof.KernelValue.lean ====
/-
  What the kernel leaves in its output array, at the ideal values.

  The grid has 7 points. Point t stages rows [1792 t, 1792 t + 1792) of the patch matrix (12544 x 768), the whole transposed
  weight matrix and the whole bias row, and writes back rows [1792 t, 1792 t + 1792) of the result. What it writes is `dense` of
  its three staged blocks; since an entry of `dense` depends on one row of the patch matrix only, that block is the same rows of
  `dense` of the three WHOLE arrays. The 7 row blocks tile the 12544 rows, so after the run the output array is `dense` of the
  three arrays as the region found them.
-/
import proofs.«166419_j16037407883837_1_alg».proof.Proof.Gen.KernelIdeal.Frame
import proofs.«166419_j16037407883837_1_alg».proof.Proof.Dense
import Idealize.ShloMosaic.Lib.Pipeline.Value

set_option maxRecDepth 16384

noncomputable section

namespace Cert.KernelIdeal.Tokens

open Idealize.ShloMosaic Idealize.ShloMosaic.TcCoe Idealize.SL.Sem Idealize.ShloMosaic.ValueIdx
open Cert.KernelIdeal Cert.KernelIdeal.Gen Cert.PatchEmbed
open Idealize.ShloMosaic.Pipeline (Dat Cfg Window)

variable (m : (ℓ : Loc nD τ sig) → Buf (Elt Ideal) ℓ) (ρ : Dev nD → PrngReg)

/-- The body's one stored value is `dense` of the three blocks it loaded. -/
theorem pay_eq (x0 : Vec Ideal S1792x768 .f32) (x1 : Vec Ideal S768x768 .f32) (x2 : Vec Ideal S1x768 .f32) :
    k0_pay1 (F := Ideal) x0 x1 x2 = dense x0 x1 x2 := by
  unfold k0_pay1
  exact ops_eq_dense _ rfl rfl rfl rfl rfl rfl none x0 x1 x2 _ _ _ _ _

theorem zero_offsets : (![0, 0] : Fin 2 → Nat) = fun _ => 0 := funext fun a => by fin_cases a <;> rfl

/-- The block indices at point t: the patch matrix's and the result's row block is t, every other block index is 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is rows [1792 t, 1792 t + 1792) of `dense` of the three arrays as the region finds them. -/
theorem flushed_eq (c : Dev nD) (t : Fin cfg0.N) :
    (dats m 0 c).flushed 3 t
      = ((cfg0.win 3).blk t).view.read (Elt Ideal) (dense (V m c main_v3) (V m c main_v4) (V m c main_v5)) := by
  show (cfg0.win 3).cut (grid0.coords t) ((dats m 0 c).after 3 t) = _
  rw [after0_3]
  unfold out0_3
  rw [View.canon_unit_zero zero_offsets]
  simp only [View.ld_unit_zero (S := S1792x768) zero_offsets, View.ld_unit_zero (S := S768x768) zero_offsets,
    View.ld_unit_zero (S := S1x768) zero_offsets]
  obtain ⟨e00, e01, e10, e11, e20, e21, e30, e31⟩ := block_indices t
  have ht : t.val < 7 := lt_of_lt_of_eq t.isLt N_0
  funext j
  obtain ⟨p, q, rfl⟩ : ∃ (p : Fin 1792) (q : Fin 768), j = ix2 p q := ⟨j 0, j 1, eq_ix2 j⟩
  refine (congrFun (pay_eq (iblk m c 0 t) (iblk m c 1 t) (iblk m c 2 t)) (ix2 p q)).trans ?_
  -- entry (p, q) of block t sits at row 1792 t + p, column q of the array
  have hemb : ((cfg0.win 3).blk t).view.emb (ix2 p q)
      = ix2 (n0 := 12544) (n1 := 768) ⟨t.val * 1792 + p.val, by have := p.isLt; omega⟩ q := by
    funext a; apply Fin.ext
    match a with
    | ⟨0, _⟩ => show win0_3.index t (0 : Fin 2) * 1792 + 1 * p.val = t.val * 1792 + p.val; omega
    | ⟨1, _⟩ => show win0_3.index t (1 : Fin 2) * 768 + 1 * q.val = q.val; omega
  refine Eq.trans ?_ (congrArg (dense (V m c main_v3) (V m c main_v4) (V m c main_v5)) hemb).symm
  -- the patch matrix's block: its rows move with t, all 768 columns
  have hA : ∀ k : Fin 768, (iblk m c 0 t (ix2 p k) : EReal)
      = (V m c main_v3 : S12544x768.Idx → EReal) (ix2 (n0 := 12544) (n1 := 768) ⟨t.val * 1792 + p.val, by have := p.isLt; omega⟩ k) := fun k => by
    show (V m c main_v3 : S12544x768.Idx → EReal) (((cfg0.win 0).blk t).view.emb (ix2 p k)) = _
    refine congrArg (V m c main_v3 : S12544x768.Idx → EReal) (funext fun a => Fin.ext ?_)
    match a with
    | ⟨0, _⟩ => show win0_0.index t (0 : Fin 2) * 1792 + 1 * p.val = t.val * 1792 + p.val; omega
    | ⟨1, _⟩ => show win0_0.index t (1 : Fin 2) * 768 + 1 * k.val = k.val; omega
  -- the weight matrix is staged whole
  have hW : ∀ k : Fin 768, (iblk m c 1 t (ix2 k q) : EReal) = (V m c main_v4 : S768x768.Idx → EReal) (ix2 k q) := fun k => by
    show (V m c main_v4 : S768x768.Idx → EReal) (((cfg0.win 1).blk t).view.emb (ix2 k q)) = _
    refine congrArg (V m c main_v4 : S768x768.Idx → EReal) (funext fun a => Fin.ext ?_)
    match a with
    | ⟨0, _⟩ => show win0_1.index t (0 : Fin 2) * 768 + 1 * k.val = k.val; omega
    | ⟨1, _⟩ => show win0_1.index t (1 : Fin 2) * 768 + 1 * q.val = q.val; omega
  -- and so is the bias row
  have hB : (iblk m c 2 t (ix2 (0 : Fin 1) q) : EReal) = (V m c main_v5 : S1x768.Idx → EReal) (ix2 (0 : Fin 1) q) := by
    show (V m c main_v5 : S1x768.Idx → EReal) (((cfg0.win 2).blk t).view.emb (ix2 (0 : Fin 1) q)) = _
    refine congrArg (V m c main_v5 : S1x768.Idx → EReal) (funext fun a => Fin.ext ?_)
    match a with
    | ⟨0, _⟩ => show win0_2.index t (0 : Fin 2) * 1 + 1 * 0 = 0; omega
    | ⟨1, _⟩ => show win0_2.index t (1 : Fin 2) * 768 + 1 * q.val = q.val; omega
  refine (dense_apply _ _ _ p q).trans (Eq.trans ?_ (dense_apply _ _ _ _ q).symm)
  exact congrArg₂ (fun x y : EReal => x + y)
    (Finset.sum_congr rfl fun k _ => congrArg₂ (fun x y : EReal => x * y) (hA k) (hW k)) hB

/-- An entry of the output array is in point t's block iff each coordinate is in the block's range on its axis. -/
theorem mem_block (t : Fin cfg0.N) (i : S12544x768.Idx) :
    i ∈ ((cfg0.win 3).blk t).view.set ↔ ∀ a : Fin 2, win0_3.index t a * S1792x768.size a ≤ (i a).val
      ∧ (i a).val < win0_3.index t a * S1792x768.size a + S1792x768.size a := by
  show i ∈ ((View.whole main_v6).slice (win0_3.rect t)).set ↔ _
  rw [View.set_slice_whole, Rect.mem_set_unit]
  exact Iff.rfl

/-- Every row block is some point's. -/
theorem block_onto : ∀ q0 : Fin 7, ∃ t : Fin cfg0.N, win0_3.index t = ![q0.val, 0] :=
  (by decide +kernel : ∀ q0 : Fin 7, ∃ t : Fin grid0.N, win0_3.index t = ![q0.val, 0])

/-- The 7 blocks of 1792 rows tile the 12544 rows: row r is in the block of point r / 1792. -/
theorem covered (i : S12544x768.Idx) :
    ∃ t : Fin cfg0.N, (cfg0.win 3).flush t = true ∧ i ∈ ((cfg0.win 3).blk t).view.set := by
  have hi0 : (i 0).val < 12544 := (i 0).isLt
  have hi1 : (i 1).val < 768 := (i 1).isLt
  obtain ⟨t, ht⟩ := block_onto ⟨(i 0).val / 1792, by omega⟩
  have q0 : win0_3.index t (0 : Fin 2) = (i 0).val / 1792 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1792 ≤ (i 0).val ∧ (i 0).val < win0_3.index t (0 : Fin 2) * 1792 + 1792; omega
  | ⟨1, _⟩ => show win0_3.index t (1 : Fin 2) * 768 ≤ (i 1).val ∧ (i 1).val < win0_3.index t (1 : Fin 2) * 768 + 768; omega

/-- After the run the output array is `dense` of the three arrays the region found. -/
theorem final (c : Dev nD) :
    (dats m 0 c).arrAt 3 cfg0.N = dense (V m c main_v3) (V m c main_v4) (V m c main_v5) :=
  (dats m 0 c).arrAt_eq_of_cover 3 _ (fun t _ => flushed_eq m c t) covered

end Cert.KernelIdeal.Tokens

end
-- ==== Proof.HostSides.lean ====
/-
  The kernel's program around its one region, at the ideal values.

  Before the region the host lays the images out as the patch matrix (two reshapes around a transpose, then the reshape to
  12544 x 768), transposes the weight matrix and reshapes the bias to one row. After it, the host reshapes the region's output to
  64 x 196 x 768 and joins the class token, spread over the 64 images, in front of it along the token axis. So the program's
  result is `withClassToken` of the class token and of the reshaped `dense` of those three arrays.
-/
import proofs.«166419_j16037407883837_1_alg».proof.Proof.KernelValue
import Idealize.ShloMosaic.Lib.StableHlo.Run

set_option maxRecDepth 16384

noncomputable section

namespace Cert.KernelIdeal.Tokens

open Idealize.ShloMosaic Idealize.ShloMosaic.TcCoe Idealize.SL.Sem Idealize.ShloMosaic.ValueIdx Idealize.ShloMosaic.StableHlo
open Cert.KernelIdeal Cert.KernelIdeal.Gen Cert.PatchEmbed
open Idealize.ShloMosaic.Pipeline (Dat Cfg Window)

variable (m : (ℓ : Loc nD τ sig) → Buf (Elt Ideal) ℓ) (ρ : Dev nD → PrngReg)

/-- The images laid out as patches: 64 images x 196 patches x 768 values (channel, row and column inside the patch). -/
def patches (x : Vec Ideal S64x3x224x224 .f32) : Vec Ideal S64x196x768 .f32 :=
  shapeCast S64x196x768 (transpose S64x14x14x3x16x16 [0, 2, 4, 1, 3, 5] (shapeCast S64x3x14x16x14x16 x shapeCasts_S64x3x224x224_S64x3x14x16x14x16)
    transposes_S64x3x14x16x14x16_S64x14x14x3x16x16_0_2_4_1_3_5) shapeCasts_S64x14x14x3x16x16_S64x196x768

/-- The class token spread over the 64 images and joined in front of the 196 patch tokens of each. -/
def withClassToken (tok : Vec Ideal S1x768 .f32) (y : Vec Ideal S64x196x768 .f32) : Vec Ideal S64x197x768 .f32 :=
  concatenate S64x197x768 1 [⟨S64x1x768, broadcastInDim S64x1x768 ![0, 1, 2] bcast_S1x1x768_S64x1x768_0_1_2
    (broadcastInDim S1x1x768 ![1, 2] bcast_S1x768_S1x1x768_1_2 tok)⟩, ⟨S64x196x768, y⟩] concatenates_S64x1x768_S64x196x768_S64x197x768_d1

/-- The region finds the patch matrix: the patches with images and patches flattened into 12544 rows. -/
theorem V_main_v3 (c : Dev nD) : (V m c main_v3 : S12544x768.Idx → EReal)
    = shapeCast S12544x768 (patches (m ((c : Thread nD τ).loc main_arg0))) shapeCasts_S64x196x768_S12544x768 := by
  show StableHlo.after hostOps0 (fun b => m (c, b)) (Proc.devRef .tc main_v3) = _
  after_results <;> rfl

/-- It finds the weight matrix transposed. -/
theorem V_main_v4 (c : Dev nD) : (V m c main_v4 : S768x768.Idx → EReal)
    = transpose S768x768 [1, 0] (m ((c : Thread nD τ).loc main_arg1)) transposes_S768x768_S768x768_1_0 := by
  show StableHlo.after hostOps0 (fun b => m (c, b)) (Proc.devRef .tc main_v4) = _
  after_results <;> rfl

/-- It finds the bias as one row. -/
theorem V_main_v5 (c : Dev nD) : (V m c main_v5 : S1x768.Idx → EReal)
    = shapeCast S1x768 (m ((c : Thread nD τ).loc main_arg2)) shapeCasts_S768_S1x768 := by
  show StableHlo.after hostOps0 (fun b => m (c, b)) (Proc.devRef .tc main_v5) = _
  after_results <;> rfl

/-- The program's result as a function of its four argument arrays: the class token in front of the reshaped `dense` of the
    patch matrix, the transposed weights and the bias row. -/
def resultOf (x0 : Vec Ideal S64x3x224x224 .f32) (x1 : Vec Ideal S768x768 .f32) (x2 : Vec Ideal S768 .f32)
    (x3 : Vec Ideal S1x768 .f32) : Vec Ideal S64x197x768 .f32 :=
  withClassToken x3
    (shapeCast S64x196x768
      (dense (shapeCast S12544x768 (patches x0) shapeCasts_S64x196x768_S12544x768)
        (transpose S768x768 [1, 0] x1 transposes_S768x768_S768x768_1_0)
        (shapeCast S1x768 x2 shapeCasts_S768_S1x768))
      shapeCasts_S12544x768_S64x196x768)

/-- The program's result from the launch contents of its four arguments. -/
def result (c : Dev nD) : Vec Ideal S64x197x768 .f32 :=
  resultOf (m ((c : Thread nD τ).loc main_arg0)) (m ((c : Thread nD τ).loc main_arg1)) (m ((c : Thread nD τ).loc main_arg2))
    (m ((c : Thread nD τ).loc main_arg3))

/-- After the run the output array is `dense` of the patch matrix, the transposed weights and the bias row. -/
theorem final_args (c : Dev nD) :
    (dats m 0 c).arrAt 3 cfg0.N
      = dense (shapeCast S12544x768 (patches (m ((c : Thread nD τ).loc main_arg0))) shapeCasts_S64x196x768_S12544x768)
        (transpose S768x768 [1, 0] (m ((c : Thread nD τ).loc main_arg1)) transposes_S768x768_S768x768_1_0)
        (shapeCast S1x768 (m ((c : Thread nD τ).loc main_arg2)) shapeCasts_S768_S1x768) := by
  rw [final m c, V_main_v3 m c, V_main_v4 m c, V_main_v5 m c]

/-- The host lines after the region leave the result buffer at `result`: they read the class token, which nothing wrote, and the
    region's output array. -/
theorem tail_main_v10 (c : Dev nD) :
    Pipeline.afterTail₀ cfgs (dats m) 0 (V0 m) [hostOps1] c main_v10 = result m c := by
  unfold Pipeline.afterTail₀
  show StableHlo.after hostOps1 _ (Proc.devRef .tc main_v10) = _
  after_results
  have etok : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have eout : Pipeline.withArrays (cfgs 0).spec c (V0 m c) (fun w => (dats m 0 c).arrAt w (cfgs 0).N) (Proc.devRef .tc main_v6)
      = dense (shapeCast S12544x768 (patches (m ((c : Thread nD τ).loc main_arg0))) shapeCasts_S64x196x768_S12544x768)
        (transpose S768x768 [1, 0] (m ((c : Thread nD τ).loc main_arg1)) transposes_S768x768_S768x768_1_0)
        (shapeCast S1x768 (m ((c : Thread nD τ).loc main_arg2)) shapeCasts_S768_S1x768) :=
    (Pipeline.withArrays_arr spec0 launch0.win.arr_inj c _ _ 3).trans (final_args m c)
  rw [etok, eout]
  rfl

/-- The kernel's program runs, ends with its result buffer at `result`, and leaves its four arguments as launched. -/
theorem run : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v10 (Pipeline.mem_restRefs_of main_v10 (by decide) (by decide))).trans (tail_main_v10 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tokens

end
-- ==== Proof.ReferenceTokens.lean ====
/-
  The reference's patch tokens are the reshaped `dense`, at the ideal values.

  The reference contracts the 768 values of each patch against each row of the weight matrix W and adds the bias:
      tokens (b, p, h) = (sum over k of patches (b, p, k) * W (h, k)) + bias (h).
  `dense` of the patches flattened to 12544 = 64 * 196 rows, of W transposed and of the bias as one row is, at row 196 b + p and
  column h, (sum over k of patches (b, p, k) * W (h, k)) + bias (h): flattening keeps the row-major position, so row 196 b + p
  of the patch matrix is patch (b, p); entry (k, h) of the transposed matrix is W (h, k); entry (0, h) of the row is bias (h).
  Reshaping the 12544 rows back to 64 x 196 gives the reference's tokens, entry by entry, with the same terms in the same order:
  no property of extended-real arithmetic is used.
-/
import proofs.«166419_j16037407883837_1_alg».proof.Proof.Gen.ReferenceIdeal.Read
import proofs.«166419_j16037407883837_1_alg».proof.Proof.Dense

noncomputable section

open scoped BigOperators

namespace Cert.ReferenceIdeal.Tokens

open Idealize.ShloMosaic Idealize.ShloMosaic.ValueIdx
open Cert.ReferenceIdeal Cert.ReferenceIdeal.Gen Cert.ReferenceIdeal.Read Cert.PatchEmbed

/-- Row 196 b + p of the 12544 rows. -/
abbrev row (b : Fin 64) (p : Fin 196) : Fin 12544 := ⟨b.val * 196 + p.val, by have := b.isLt; have := p.isLt; omega⟩

theorem tokens_eq (x0 : S64x3x224x224.Idx → EReal) (x1 : S768x768.Idx → EReal) (x2 : S768.Idx → EReal)
    (h1 : S64x196x768.ShapeCasts ⟨2, ![12544, 768]⟩) (h2 : S768x768.Transposes [1, 0] S768x768)
    (h3 : S768.ShapeCasts S1x768) (h4 : (⟨2, ![12544, 768]⟩ : Shape).ShapeCasts S64x196x768) :
    shapeCast S64x196x768
        (dense (shapeCast ⟨2, ![12544, 768]⟩ (val_main_v2 (F := Ideal) x0) h1) (transpose S768x768 [1, 0] x1 h2) (shapeCast S1x768 x2 h3)) h4
      = val_main_v6 (F := Ideal) x0 x1 x2 := by
  funext i
  obtain ⟨b, p, h, rfl⟩ : ∃ (b : Fin 64) (p : Fin 196) (h : Fin 768), i = ix3 b p h := ⟨i 0, i 1, i 2, eq_ix3 i⟩
  -- the reference's entry
  rw [val_main_v6_apply, val_main_v3_apply, val_main_v5_apply, val_main_v4_apply, Ideal.addf_def]
  have el : ∀ k : Fin 768, lidx_main_v3 (ix3 b p h) k = ix3 b p k := fun k => funext fun a => by
    match a with | ⟨0, _⟩ => rfl | ⟨1, _⟩ => rfl | ⟨2, _⟩ => rfl
  have er : ∀ k : Fin 768, ridx_main_v3 (ix3 b p h) k = ix2 h k := fun k => funext fun a => by
    match a with | ⟨0, _⟩ => rfl | ⟨1, _⟩ => rfl
  have eb : idx_main_v4 (idx_main_v5 (ix3 b p h)) = ix1 h := funext fun a => by
    match a with | ⟨0, _⟩ => rfl
  simp only [el, er, eb]
  -- the reshaped `dense`'s entry: the same row-major position in 12544 x 768
  rw [shapeCast_apply _ h4 (ix3 b p h) (ix2 (row b p) h) (by
    rw [Shape.rowMajor_val_two, Shape.rowMajor_val_three]
    show (b.val * 196 + p.val) * 768 + h.val = (b.val * 196 + p.val) * 768 + h.val; rfl), dense_apply]
  have ea : ∀ k : Fin 768, shapeCast ⟨2, ![12544, 768]⟩ (val_main_v2 (F := Ideal) x0) h1 (ix2 (row b p) k)
      = val_main_v2 (F := Ideal) x0 (ix3 b p k) := fun k =>
    shapeCast_apply _ h1 (ix2 (row b p) k) (ix3 b p k) (by
      rw [Shape.rowMajor_val_two, Shape.rowMajor_val_three]
      show (b.val * 196 + p.val) * 768 + k.val = (b.val * 196 + p.val) * 768 + k.val; rfl)
  have ew : ∀ k : Fin 768, transpose S768x768 [1, 0] x1 h2 (ix2 k h) = x1 (ix2 h k) := fun k =>
    transpose_apply [1, 0] x1 h2 (ix2 k h) (ix2 h k) (fun a => match a with | ⟨0, _⟩ => rfl | ⟨1, _⟩ => rfl)
  have ebias : shapeCast S1x768 x2 h3 (ix2 (0 : Fin 1) h) = x2 (ix1 h) :=
    shapeCast_apply _ h3 (ix2 (0 : Fin 1) h) (ix1 h) (by
      rw [Shape.rowMajor_val_one, Shape.rowMajor_val_two]
      show h.val = 0 * 768 + h.val; omega)
  simp only [ea, ew, ebias]

end Cert.ReferenceIdeal.Tokens

end
-- ==== Proof.lean ====
/-
  A patch embedding: 64 images of 3 x 224 x 224 are cut into 14 x 14 patches of 768 values each, every patch is mapped by a
  dense layer (768 x 768 weights W, a bias) to a token, and a class token is put in front of the 196 patch tokens of each image.

  The kernel computes the dense layer on the 12544 = 64 * 196 patches as rows of one matrix, 1792 rows per grid point, as a
  product with W transposed, its operands rounded to bf16, plus the bias row; the reference contracts each patch against each row
  of W and adds the bias. At the ideal values rounding is the identity and both are, for image b, patch p and output h,
      (sum over k of patches (b, p, k) * W (h, k)) + bias (h),
  the same terms in the same order, so the claim needs no property of the inputs: the precondition is never opened.

  The kernel's array after the run is read off its frame run block by block (KernelValue), the host operations around the region
  are read in HostSides, and the reference's tokens are matched entry by entry in ReferenceTokens. The layout of the images as
  patches and the join with the class token are the same operations in both programs and are never opened.
-/
import proofs.«166419_j16037407883837_1_alg».proof.Defs
import proofs.«166419_j16037407883837_1_alg».proof.Proof.Gen.Kernel
import proofs.«166419_j16037407883837_1_alg».proof.Proof.Gen.Kernel.Skeleton
import proofs.«166419_j16037407883837_1_alg».proof.Proof.Gen.Kernel.Launch
import proofs.«166419_j16037407883837_1_alg».proof.Proof.Gen.Kernel.Points
import proofs.«166419_j16037407883837_1_alg».proof.Proof.Gen.Kernel.Frame
import proofs.«166419_j16037407883837_1_alg».proof.Proof.Gen.KernelIdeal
import proofs.«166419_j16037407883837_1_alg».proof.Proof.Gen.KernelIdeal.Skeleton
import proofs.«166419_j16037407883837_1_alg».proof.Proof.Gen.KernelIdeal.Launch
import proofs.«166419_j16037407883837_1_alg».proof.Proof.Gen.KernelIdeal.Points
import proofs.«166419_j16037407883837_1_alg».proof.Proof.Gen.KernelIdeal.Frame
import proofs.«166419_j16037407883837_1_alg».proof.Proof.Gen.ReferenceIdeal
import proofs.«166419_j16037407883837_1_alg».proof.Proof.Gen.ReferenceIdeal.Run
import proofs.«166419_j16037407883837_1_alg».proof.Proof.Gen.ReferenceIdeal.Read
import proofs.«166419_j16037407883837_1_alg».proof.Proof.Gen.Pre_finite_inputs
import proofs.«166419_j16037407883837_1_alg».proof.Proof.HostSides
import proofs.«166419_j16037407883837_1_alg».proof.Proof.ReferenceTokens
import Idealize.ShloMosaic.Adequacy
import Idealize.ShloMosaic.Init

noncomputable section

namespace Cert.Proof

open Idealize.ShloMosaic Idealize.SL.Sem

/-- The reference's result is the kernel's, as functions of the four argument arrays: the class token is joined in front of the
    same tokens. -/
theorem result_eq (x0 : Cert.ReferenceIdeal.S64x3x224x224.Idx → EReal) (x1 : Cert.ReferenceIdeal.S768x768.Idx → EReal)
    (x2 : Cert.ReferenceIdeal.S768.Idx → EReal) (x3 : Cert.ReferenceIdeal.S1x768.Idx → EReal) :
    Cert.ReferenceIdeal.Read.val_main_v9 (F := Ideal) x0 x1 x2 x3 = Cert.KernelIdeal.Tokens.resultOf x0 x1 x2 x3 := by
  have h := congrArg (Cert.KernelIdeal.Tokens.withClassToken x3)
    (Cert.ReferenceIdeal.Tokens.tokens_eq x0 x1 x2 Cert.KernelIdeal.Gen.shapeCasts_S64x196x768_S12544x768
      Cert.KernelIdeal.Gen.transposes_S768x768_S768x768_1_0 Cert.KernelIdeal.Gen.shapeCasts_S768_S1x768
      Cert.KernelIdeal.Gen.shapeCasts_S12544x768_S64x196x768)
  exact h.symm

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs run and end with the same result. -/
theorem algebraic : Cert.algebraic_KernelIdeal_ReferenceIdeal := by
  intro m ρ m' ρ' _ hagree
  refine ⟨fun c => Cert.KernelIdeal.Tokens.result m c, Cert.KernelIdeal.Tokens.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact result_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
